-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8x16x64 : Shape := ⟨4, ![1, 8, 16, 64]⟩
abbrev S1x8x65536x64 : Shape := ⟨4, ![1, 8, 65536, 64]⟩
abbrev S_ : Shape := ⟨0, ![]⟩

class Facts : Prop where
  bcast_S_S1x8x16x64 : S_.BroadcastsInDim S1x8x16x64 (![] : Fin 0 → Fin S1x8x16x64.rank)
  reducesTo_S1x8x16x64_S_d0_1_2_3 : S1x8x16x64.ReducesTo [0, 1, 2, 3] S_
  h_S_ : 0 < S_.numel
  bcast_S_S1x8x65536x64 : S_.BroadcastsInDim S1x8x65536x64 (![] : Fin 0 → Fin S1x8x65536x64.rank)
  reducesTo_S1x8x65536x64_S_d0_1_2_3 : S1x8x65536x64.ReducesTo [0, 1, 2, 3] S_

variable [Facts]

def fn {F : FTy → Type} [FloatOps F] (main_arg0 : FVec F S1x8x16x64 .f32) (main_arg1 : FVec F S1x8x65536x64 .f32) : IVec S_ 1 :=
  let main_v0 : FVec F S1x8x16x64 .f32 := Host.absf main_arg0
  let main_cst : FVec F S_ .f32 := constant S_ .f32 0x7F800000#32
  let main_v1 : FVec F S1x8x16x64 .f32 := broadcastInDim S1x8x16x64 ![] bcast_S_S1x8x16x64 main_cst
  let main_v2 : IVec S1x8x16x64 1 := cmpf .olt main_v0 main_v1
  let main_c : IVec S_ 1 := constantI S_ 1 1#1
  let main_v3 : IVec S_ 1 := (fun x v => Host.reduce IntOp.andi x v reducesTo_S1x8x16x64_S_d0_1_2_3 h_S_) main_v2 main_c
  let main_v4 : FVec F S1x8x65536x64 .f32 := Host.absf main_arg1
  let main_cst_0 : FVec F S_ .f32 := constant S_ .f32 0x7F800000#32
  let main_v5 : FVec F S1x8x65536x64 .f32 := broadcastInDim S1x8x65536x64 ![] bcast_S_S1x8x65536x64 main_cst_0
  let main_v6 : IVec S1x8x65536x64 1 := cmpf .olt main_v4 main_v5
  let main_c_1 : IVec S_ 1 := constantI S_ 1 1#1
  let main_v7 : IVec S_ 1 := (fun x v => Host.reduce IntOp.andi x v reducesTo_S1x8x65536x64_S_d0_1_2_3 h_S_) main_v6 main_c_1
  let main_v8 : IVec S_ 1 := andi main_v3 main_v7
  main_v8
-- ==== Kernel.lean ====
abbrev S1x8x16x64 : Shape := ⟨4, ![1, 8, 16, 64]⟩
abbrev S1x8x65536x64 : Shape := ⟨4, ![1, 8, 65536, 64]⟩
abbrev S8x65536x64 : Shape := ⟨3, ![8, 65536, 64]⟩
abbrev S8x16x64 : Shape := ⟨3, ![8, 16, 64]⟩
abbrev S8x65552x64 : Shape := ⟨3, ![8, 65552, 64]⟩
abbrev S1x16384x64 : Shape := ⟨3, ![1, 16384, 64]⟩
abbrev S1x16x64 : Shape := ⟨3, ![1, 16, 64]⟩
abbrev S1x8x65552x64 : Shape := ⟨4, ![1, 8, 65552, 64]⟩

abbrev nBuf : Space → Nat
  | .hbm => 7
  | .vmem => 10
  | .smem => 0
  | _ => 0

abbrev bufTy : (tb : Table) → Fin (tcTables nBuf tb) → BufTy
  | .hbm, ⟨0, _⟩ => ⟨S1x8x16x64, .f32⟩
  | .hbm, ⟨1, _⟩ => ⟨S1x8x65536x64, .f32⟩
  | .hbm, ⟨2, _⟩ => ⟨S8x65536x64, .f32⟩
  | .hbm, ⟨3, _⟩ => ⟨S8x16x64, .f32⟩
  | .hbm, ⟨4, _⟩ => ⟨S8x65552x64, .f32⟩
  | .hbm, ⟨5, _⟩ => ⟨S8x65552x64, .f32⟩
  | .hbm, ⟨6, _⟩ => ⟨S1x8x65552x64, .f32⟩
  | .local _ .vmem, ⟨0, _⟩ => ⟨S1x16384x64, .f32⟩
  | .local _ .vmem, ⟨1, _⟩ => ⟨S1x16384x64, .f32⟩
  | .local _ .vmem, ⟨2, _⟩ => ⟨S1x16384x64, .f32⟩
  | .local _ .vmem, ⟨3, _⟩ => ⟨S1x16384x64, .f32⟩
  | .local _ .vmem, ⟨4, _⟩ => ⟨S1x16x64, .f32⟩
  | .local _ .vmem, ⟨5, _⟩ => ⟨S1x16x64, .f32⟩
  | .local _ .vmem, ⟨6, _⟩ => ⟨S1x16x64, .f32⟩
  | .local _ .vmem, ⟨7, _⟩ => ⟨S1x16x64, .f32⟩
  | .local _ .vmem, ⟨8, _⟩ => ⟨S1x16x64, .f32⟩
  | .local _ .vmem, ⟨9, _⟩ => ⟨S1x16x64, .f32⟩
  | _, _ => ⟨S1x8x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![8], ![false]⟩

def cc1_transform_0 (i : grid1.Coords) : Fin 3 → Nat :=
  let arg0 : BitVec 32 := BitVec.ofNat 32 (i 0).val
  let c4096_i32 : BitVec 32 := 4096#32
  let c0_i32 : BitVec 32 := 0#32
  let c0_i32_0 : BitVec 32 := 0#32
  ![arg0.toNat, c4096_i32.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c4096_i32 : BitVec 32 := 4096#32
  let c0_i32 : BitVec 32 := 0#32
  let c0_i32_0 : BitVec 32 := 0#32
  ![arg0.toNat, c4096_i32.toNat, c0_i32.toNat]

abbrev stage1_0 : Fin 2 → Memref sig .tc .vmem S1x16x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x16x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x16x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S1x8x65536x64_S8x65536x64 : S1x8x65536x64.ShapeCasts S8x65536x64
  shapeCasts_S1x8x16x64_S8x16x64 : S1x8x16x64.ShapeCasts S8x16x64
  inb_S1x16384x64_S1x16384x64_0_0_0 : ∀ a, (![0, 0, 0] : Fin 3 → Nat) a + S1x16384x64.size a ≤ S1x16384x64.size a
  h_S1x16384x64 : 0 < S1x16384x64.numel
  shapeCasts_S1x16384x64_S1x16384x64 : S1x16384x64.ShapeCasts S1x16384x64
  inb_S1x16x64_S1x16x64_0_0_0 : ∀ a, (![0, 0, 0] : Fin 3 → Nat) a + S1x16x64.size a ≤ S1x16x64.size a
  h_S1x16x64 : 0 < S1x16x64.numel
  shapeCasts_S1x16x64_S1x16x64 : S1x16x64.ShapeCasts S1x16x64
  bcast_S8x65552x64_S1x8x65552x64_1_2_3 : S8x65552x64.BroadcastsInDim S1x8x65552x64 (![1, 2, 3] : Fin 3 → Fin S1x8x65552x64.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384x64.size a ≤ S8x65536x64.size a
  hwx0_0 : ∀ i : grid0.Coords, EltTy.bits .f32 = 32 ∨ (Rect.block (s := S8x65536x64) S1x16384x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x16384x64.size a < S8x65552x64.size a
  hwx0_1 : ∀ i : grid0.Coords, EltTy.bits .f32 = 32 ∨ (Rect.unit (s := S8x65552x64) (fun a => cc0_transform_1 i a * S1x16384x64.size a) (fun a => (Pipeline.Clip.of (cc0_transform_1 i a) (S1x16384x64.size a) (S8x65552x64.size a)).extent (S1x16384x64.size a)) fun a => Pipeline.Clip.inb (Pipeline.Clip.ok_of (hstart0_1 i a))).WholeWords (EltTy.packing .f32)
  hwxs0_1 : ∀ i : grid0.Coords, EltTy.bits .f32 = 32 ∨ (Rect.unit (s := S1x16384x64) (fun _ => 0) (fun a => (Pipeline.Clip.of (cc0_transform_1 i a) (S1x16384x64.size a) (S8x65552x64.size a)).extent (S1x16384x64.size a)) fun a => (Nat.zero_add _).trans_le (Pipeline.Clip.extent_le (Pipeline.Clip.ok_of (hstart0_1 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x64.size a ≤ S8x65552x64.size a
  hwx1_0 : ∀ i : grid1.Coords, EltTy.bits .f32 = 32 ∨ (Rect.block (s := S8x65552x64) S1x16x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x64.size a ≤ S8x16x64.size a
  hwx1_1 : ∀ i : grid1.Coords, EltTy.bits .f32 = 32 ∨ (Rect.block (s := S8x16x64) S1x16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x64.size a ≤ S8x65552x64.size a
  hwx1_2 : ∀ i : grid1.Coords, EltTy.bits .f32 = 32 ∨ (Rect.block (s := S8x65552x64) S1x16x64.size (cc1_transform_2 i) (hinb1_2 i)).WholeWords (EltTy.packing .f32)

variable [Facts₀]

abbrev win0_0 : Pipeline.Window sig grid0 :=
  Pipeline.Window.ofSpec (Memref.whole main_v0) S1x16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v2) S1x16384x64.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S1x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x16x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x16x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where
  halias1_2 : Pipeline.Aliased win1 0 2

variable [Facts]
-- ==== ReferenceIdeal.lean ====
abbrev S1x8x16x64 : Shape := ⟨4, ![1, 8, 16, 64]⟩
abbrev S1x8x65536x64 : Shape := ⟨4, ![1, 8, 65536, 64]⟩
abbrev S1x8x65552x64 : Shape := ⟨4, ![1, 8, 65552, 64]⟩

abbrev nBuf : Space → Nat
  | .hbm => 3
  | .vmem => 0
  | .smem => 0
  | _ => 0

abbrev bufTy : (tb : Table) → Fin (tcTables nBuf tb) → BufTy
  | .hbm, ⟨0, _⟩ => ⟨S1x8x16x64, .f32⟩
  | .hbm, ⟨1, _⟩ => ⟨S1x8x65536x64, .f32⟩
  | .hbm, ⟨2, _⟩ => ⟨S1x8x65552x64, .f32⟩
  | _, _ => ⟨S1x8x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  concatenates_S1x8x65536x64_S1x8x16x64_S1x8x65552x64_d2 : Shape.Concatenates [S1x8x65536x64, S1x8x16x64] S1x8x65552x64 2

variable [Facts₀]

class Facts : Prop extends Facts₀ where

variable [Facts]
-- ==== Proof.Regions.lean ====
/-
  What each of the two pipelines leaves in its output array, for any contents `V` its region is entered with.

  The copy region walks a grid of 8 heads by 4 row tiles; at point (h, k) it stores, unchanged, rows
  16384·k … 16384·k + 16383 of head h of its input (8 × 65536 × 64) into the same rows of its output
  (8 × 65552 × 64). The 32 blocks written back cover exactly the rows below 65536, so after the region the output
  holds the input there and, on the last 16 rows of every head, whatever it held at entry (`copy_array`).

  The tail region walks the 8 heads; at head h it stores, unchanged, the 16 × 64 block of new rows of head h into
  rows 65536 … 65551 of head h of its output. The 8 blocks cover exactly the rows from 65536 on, so after the
  region the output holds the new rows there and its entry contents below (`tail_array`).

  Both are read off the write-backs by the library's piecewise form of the final array: on an index some block
  covers, the one whole-array function every block is a restriction of; elsewhere the entry contents.
-/
import proofs.«129565_j79276506350246_1_alg».proof.Proof.Gen.KernelIdeal.Frame
import Idealize.ShloMosaic.Lib.Pipeline.Value
import Idealize.ShloMosaic.Lib.ValueIdx

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable {F : FTy → Type} [FloatOps F]
variable (V : (c : Dev nD) → (b : Ref sig .tc) → Buf (Elt F) ((c : Thread nD τ).loc b))

/-- Every body access starts at the buffer's origin. -/
theorem origin3 : (![0, 0, 0] : Fin 3 → Nat) = fun _ => 0 := funext fun a => by fin_cases a <;> rfl

/-! ## The copy region -/

/-- The stored value is the loaded block: the cast between equal shapes changes nothing. -/
theorem copy_pay (x0 : Vec F S1x16384x64 .f32) : k0_pay1 x0 = x0 := shapeCast_self _ _

/-- Input and output blocks sit at the same block index, head below 8, row tile below 4, lane block 0. -/
theorem copy_idx : ∀ t : Fin cfg0.N,
    win0_0.index t (0 : Fin 3) = win0_1.index t (0 : Fin 3)
    ∧ win0_0.index t (1 : Fin 3) = win0_1.index t (1 : Fin 3)
    ∧ win0_0.index t (2 : Fin 3) = win0_1.index t (2 : Fin 3)
    ∧ win0_1.index t (0 : Fin 3) ≤ 7 ∧ win0_1.index t (1 : Fin 3) ≤ 3 ∧ win0_1.index t (2 : Fin 3) = 0 :=
  (by decide +kernel : ∀ t : Fin grid0.N, _)

/-- No output block reaches the array's end: every write-back moves the whole 1 × 16384 × 64 block. -/
theorem copy_xsize : ∀ t : Fin cfg0.N,
    win0_1.xsize (grid0.coords t) (0 : Fin 3) = 1 ∧ win0_1.xsize (grid0.coords t) (1 : Fin 3) = 16384
    ∧ win0_1.xsize (grid0.coords t) (2 : Fin 3) = 64 :=
  (by decide +kernel : ∀ t : Fin grid0.N, _)

/-- Every (head, row tile) pair is some point's output block. -/
theorem copy_onto : ∀ (q0 : Fin 8) (q1 : Fin 4), ∃ t : Fin cfg0.N, win0_1.index t = ![q0.val, q1.val, 0] :=
  (by decide +kernel : ∀ (q0 : Fin 8) (q1 : Fin 4), ∃ t : Fin grid0.N, win0_1.index t = ![q0.val, q1.val, 0])

/-- The output after the copy region: the input on the rows below 65536, the entry contents on the last 16. -/
def copied (c : Dev nD) : S8x65552x64.Idx → Elt F .f32 := fun i =>
  if h : (i 1).val < 65536 then
    V c main_v0 (ix3 (n0 := 8) (n1 := 65536) (n2 := 64) (i 0) ⟨(i 1).val, h⟩ (i 2))
  else V c main_v2 i

/-- What point `t` writes back is its block of `copied`: the input block at the same block index, and all its
    rows lie below 65536. -/
theorem copy_flushed (c : Dev nD) (t : Fin cfg0.N) :
    (dat0 V c).flushed 1 t = ((cfg0.win 1).blk t).view.read (Elt F) (copied V c) := by
  show (cfg0.win 1).cut (grid0.coords t) ((dat0 V c).after 1 t) = _
  rw [after0_1]
  unfold out0_1
  rw [View.canon_unit_zero origin3]
  simp only [View.ld_unit_zero (S := S1x16384x64) origin3]
  rw [copy_pay]
  obtain ⟨e0, e1, e2, b0, b1, b2⟩ := copy_idx t
  funext j
  have hj0 : (j 0).val < 1 := lt_of_lt_of_le (j 0).isLt (win0_1.xsize_le (grid0.coords t) 0)
  have hj1 : (j 1).val < 16384 := lt_of_lt_of_le (j 1).isLt (win0_1.xsize_le (grid0.coords t) 1)
  have hj2 : (j 2).val < 64 := lt_of_lt_of_le (j 2).isLt (win0_1.xsize_le (grid0.coords t) 2)
  show V c main_v0 (((cfg0.win 0).blk t).view.emb ((cfg0.win 1).xinj (grid0.coords t) j))
    = copied V c (((cfg0.win 1).blk t).view.emb j)
  have hrow : ((((cfg0.win 1).blk t).view.emb j) 1).val = win0_1.index t (1 : Fin 3) * 16384 + 1 * (j 1).val := rfl
  unfold copied
  rw [dif_pos (by rw [hrow]; omega)]
  refine congrArg (V c main_v0) (funext fun a => Fin.ext ?_)
  match a with
  | ⟨0, _⟩ =>
    show win0_0.index t (0 : Fin 3) * 1 + 1 * (j 0).val = win0_1.index t (0 : Fin 3) * 1 + 1 * (j 0).val
    omega
  | ⟨1, _⟩ =>
    show win0_0.index t (1 : Fin 3) * 16384 + 1 * (j 1).val = win0_1.index t (1 : Fin 3) * 16384 + 1 * (j 1).val
    omega
  | ⟨2, _⟩ =>
    show win0_0.index t (2 : Fin 3) * 64 + 1 * (j 2).val = win0_1.index t (2 : Fin 3) * 64 + 1 * (j 2).val
    omega

/-- An index of the output is in point `t`'s block iff each coordinate is in the block's range on its axis. -/
theorem copy_mem (t : Fin cfg0.N) (i : S8x65552x64.Idx) :
    i ∈ ((cfg0.win 1).blk t).view.set ↔ ∀ a : Fin 3, win0_1.index t a * S1x16384x64.size a ≤ (i a).val
      ∧ (i a).val < win0_1.index t a * S1x16384x64.size a + win0_1.xsize (grid0.coords t) a := by
  show i ∈ ((View.whole main_v2).slice (win0_1.rect t)).set ↔ _
  rw [View.set_slice_whole, Rect.mem_set_unit]
  exact Iff.rfl

/-- Every index whose row is below 65536 is in the block of the point at its head and its row's tile. -/
theorem copy_cover (i : S8x65552x64.Idx) (hr : (i 1).val < 65536) :
    ∃ t : Fin cfg0.N, (cfg0.win 1).flush t = true ∧ i ∈ ((cfg0.win 1).blk t).view.set := by
  have hi0 : (i 0).val < 8 := (i 0).isLt
  have hi2 : (i 2).val < 64 := (i 2).isLt
  obtain ⟨t, ht⟩ := copy_onto ⟨(i 0).val, hi0⟩ ⟨(i 1).val / 16384, by omega⟩
  have q0 : win0_1.index t (0 : Fin 3) = (i 0).val := congrFun ht 0
  have q1 : win0_1.index t (1 : Fin 3) = (i 1).val / 16384 := congrFun ht 1
  have q2 : win0_1.index t (2 : Fin 3) = 0 := congrFun ht 2
  obtain ⟨x0, x1, x2⟩ := copy_xsize t
  refine ⟨t, flush0_1 t, (copy_mem t i).mpr fun a => ?_⟩
  match a with
  | ⟨0, _⟩ =>
    show win0_1.index t (0 : Fin 3) * 1 ≤ (i 0).val
      ∧ (i 0).val < win0_1.index t (0 : Fin 3) * 1 + win0_1.xsize (grid0.coords t) (0 : Fin 3)
    omega
  | ⟨1, _⟩ =>
    show win0_1.index t (1 : Fin 3) * 16384 ≤ (i 1).val
      ∧ (i 1).val < win0_1.index t (1 : Fin 3) * 16384 + win0_1.xsize (grid0.coords t) (1 : Fin 3)
    omega
  | ⟨2, _⟩ =>
    show win0_1.index t (2 : Fin 3) * 64 ≤ (i 2).val
      ∧ (i 2).val < win0_1.index t (2 : Fin 3) * 64 + win0_1.xsize (grid0.coords t) (2 : Fin 3)
    omega

/-- THE OUTPUT OF THE COPY REGION: the input on the rows below 65536, the entry contents elsewhere. -/
theorem copy_array (c : Dev nD) : (dat0 V c).arrAt 1 cfg0.N = copied V c := by
  have key : ∀ i : S8x65552x64.Idx, (dat0 V c).arrAt 1 cfg0.N i = copied V c i := by
    intro i
    rw [(dat0 V c).arrAt_eq_piecewise 1 (copied V c) (fun t _ => copy_flushed V c t) i, A_eq0]
    by_cases hr : (i 1).val < 65536
    · rw [if_pos (copy_cover i hr)]
    · have e : copied V c i = V c main_v2 i := by unfold copied; rw [dif_neg hr]
      rw [e]
      split <;> rfl
  exact funext key

/-! ## The tail region -/

/-- The stored value is the loaded block of new rows. -/
theorem tail_pay (x1 : Vec F S1x16x64 .f32) : k1_pay1 x1 = x1 := shapeCast_self _ _

/-- At head `t` the new rows' block is block (t, 0, 0) of its array and the output's block is block (t, 4096, 0):
    rows 16·4096 = 65536 onward. -/
theorem tail_idx : ∀ t : Fin cfg1.N,
    win1_1.index t (0 : Fin 3) = win1_2.index t (0 : Fin 3)
    ∧ win1_1.index t (1 : Fin 3) = 0 ∧ win1_1.index t (2 : Fin 3) = 0
    ∧ win1_2.index t (0 : Fin 3) ≤ 7 ∧ win1_2.index t (1 : Fin 3) = 4096 ∧ win1_2.index t (2 : Fin 3) = 0 :=
  (by decide +kernel : ∀ t : Fin grid1.N, _)

/-- Every head is some point's output block. -/
theorem tail_onto : ∀ q0 : Fin 8, ∃ t : Fin cfg1.N, win1_2.index t = ![q0.val, 4096, 0] :=
  (by decide +kernel : ∀ q0 : Fin 8, ∃ t : Fin grid1.N, win1_2.index t = ![q0.val, 4096, 0])

/-- The output after the tail region: the new rows from row 65536 on, the entry contents below. -/
def tailed (c : Dev nD) : S8x65552x64.Idx → Elt F .f32 := fun i =>
  if h : 65536 ≤ (i 1).val then
    V c main_v1 (ix3 (n0 := 8) (n1 := 16) (n2 := 64) (i 0)
      ⟨(i 1).val - 65536, by have h1 : (i 1).val < 65552 := (i 1).isLt; omega⟩ (i 2))
  else V c main_v3 i

/-- What point `t` writes back is its block of `tailed`: the block of new rows of the same head, and all the
    output block's rows are at or past 65536. -/
theorem tail_flushed (c : Dev nD) (t : Fin cfg1.N) :
    (dat1 V c).flushed 2 t = ((cfg1.win 2).blk t).view.read (Elt F) (tailed V c) := by
  show (cfg1.win 2).cut (grid1.coords t) ((dat1 V c).after 2 t) = _
  rw [after1_2]
  unfold out1_2
  rw [View.canon_unit_zero origin3]
  simp only [View.ld_unit_zero (S := S1x16x64) origin3]
  rw [tail_pay]
  obtain ⟨e0, e1, e2, b0, b1, b2⟩ := tail_idx t
  funext j
  have hj0 : (j 0).val < 1 := (j 0).isLt
  have hj1 : (j 1).val < 16 := (j 1).isLt
  have hj2 : (j 2).val < 64 := (j 2).isLt
  show V c main_v1 (((cfg1.win 1).blk t).view.emb j) = tailed V c (((cfg1.win 2).blk t).view.emb j)
  have hrow : ((((cfg1.win 2).blk t).view.emb j) 1).val = win1_2.index t (1 : Fin 3) * 16 + 1 * (j 1).val := rfl
  unfold tailed
  rw [dif_pos (by rw [hrow]; omega)]
  refine congrArg (V c main_v1) (funext fun a => Fin.ext ?_)
  match a with
  | ⟨0, _⟩ =>
    show win1_1.index t (0 : Fin 3) * 1 + 1 * (j 0).val = win1_2.index t (0 : Fin 3) * 1 + 1 * (j 0).val
    omega
  | ⟨1, _⟩ =>
    show win1_1.index t (1 : Fin 3) * 16 + 1 * (j 1).val = win1_2.index t (1 : Fin 3) * 16 + 1 * (j 1).val - 65536
    omega
  | ⟨2, _⟩ =>
    show win1_1.index t (2 : Fin 3) * 64 + 1 * (j 2).val = win1_2.index t (2 : Fin 3) * 64 + 1 * (j 2).val
    omega

/-- An index of the output is in point `t`'s block iff each coordinate is in the block's range on its axis. -/
theorem tail_mem (t : Fin cfg1.N) (i : S8x65552x64.Idx) :
    i ∈ ((cfg1.win 2).blk t).view.set ↔ ∀ a : Fin 3, win1_2.index t a * S1x16x64.size a ≤ (i a).val
      ∧ (i a).val < win1_2.index t a * S1x16x64.size a + S1x16x64.size a := by
  show i ∈ ((View.whole main_v3).slice (win1_2.rect t)).set ↔ _
  rw [View.set_slice_whole, Rect.mem_set_unit]
  exact Iff.rfl

/-- Every index whose row is at or past 65536 is in the block of the point at its head. -/
theorem tail_cover (i : S8x65552x64.Idx) (hr : 65536 ≤ (i 1).val) :
    ∃ t : Fin cfg1.N, (cfg1.win 2).flush t = true ∧ i ∈ ((cfg1.win 2).blk t).view.set := by
  have hi0 : (i 0).val < 8 := (i 0).isLt
  have hi1 : (i 1).val < 65552 := (i 1).isLt
  have hi2 : (i 2).val < 64 := (i 2).isLt
  obtain ⟨t, ht⟩ := tail_onto ⟨(i 0).val, hi0⟩
  have q0 : win1_2.index t (0 : Fin 3) = (i 0).val := congrFun ht 0
  have q1 : win1_2.index t (1 : Fin 3) = 4096 := congrFun ht 1
  have q2 : win1_2.index t (2 : Fin 3) = 0 := congrFun ht 2
  refine ⟨t, flush1_2 t, (tail_mem t i).mpr fun a => ?_⟩
  match a with
  | ⟨0, _⟩ =>
    show win1_2.index t (0 : Fin 3) * 1 ≤ (i 0).val ∧ (i 0).val < win1_2.index t (0 : Fin 3) * 1 + 1
    omega
  | ⟨1, _⟩ =>
    show win1_2.index t (1 : Fin 3) * 16 ≤ (i 1).val ∧ (i 1).val < win1_2.index t (1 : Fin 3) * 16 + 16
    omega
  | ⟨2, _⟩ =>
    show win1_2.index t (2 : Fin 3) * 64 ≤ (i 2).val ∧ (i 2).val < win1_2.index t (2 : Fin 3) * 64 + 64
    omega

/-- THE OUTPUT OF THE TAIL REGION: the new rows from row 65536 on, the entry contents below. -/
theorem tail_array (c : Dev nD) : (dat1 V c).arrAt 2 cfg1.N = tailed V c := by
  have key : ∀ i : S8x65552x64.Idx, (dat1 V c).arrAt 2 cfg1.N i = tailed V c i := by
    intro i
    rw [(dat1 V c).arrAt_eq_piecewise 2 (tailed V c) (fun t _ => tail_flushed V c t) i, A_eq1]
    by_cases hr : 65536 ≤ (i 1).val
    · rw [if_pos (tail_cover i hr)]
    · have e : tailed V c i = V c main_v3 i := by unfold tailed; rw [dif_neg hr]
      rw [e]
      split <;> rfl
  exact funext key

end Cert.KernelIdeal.RegionValue

end
-- ==== Proof.Append.lean ====
/-
  Appending rows to a cache, as one array read index by index.

  The result has shape [1, 8, 65552, 64]: for every head, the cache's 65536 rows followed by the 16 new rows.
  `appended` states it at an index — row `r` is the cache's row `r` while `r < 65536` and the new block's row
  `r - 65536` from there on — and `concatenate_eq_appended` shows that the two-piece concatenation along the row
  axis is that array: an index whose row falls in the first piece reads the first piece at the same coordinates,
  one whose row falls in the second piece reads the second piece with the first piece's extent taken off the row.
-/
import Idealize.ShloMosaic.Lib.Pipeline.Value
import Idealize.ShloMosaic.Lib.ValueIdx

noncomputable section

namespace Cert.Append

open Idealize.ShloMosaic Idealize.ShloMosaic.ValueIdx

/-- The cache, the new rows and the appended result, as shapes. -/
abbrev SCache : Shape := ⟨4, ![1, 8, 65536, 64]⟩
abbrev SNew : Shape := ⟨4, ![1, 8, 16, 64]⟩
abbrev SOut : Shape := ⟨4, ![1, 8, 65552, 64]⟩

variable {α : Type}

/-- The appended array: row `r` of a head is the cache's row `r` while `r < 65536`, the new block's row
    `r - 65536` from there on; the batch, head and lane coordinates pass through. -/
def appended (cache : SCache.Idx → α) (new : SNew.Idx → α) : SOut.Idx → α := fun j =>
  if h : (j 2).val < 65536 then
    cache (ix4 (n0 := 1) (n1 := 8) (n2 := 65536) (n3 := 64) (j 0) (j 1) ⟨(j 2).val, h⟩ (j 3))
  else
    new (ix4 (n0 := 1) (n1 := 8) (n2 := 16) (n3 := 64) (j 0) (j 1)
      ⟨(j 2).val - 65536, by have h2 : (j 2).val < 65552 := (j 2).isLt; omega⟩ (j 3))

/-- The concatenation of the cache and the new rows along the row axis is the appended array. -/
theorem concatenate_eq_appended (h : Shape.Concatenates [SCache, SNew] SOut 2) (cache : SCache.Idx → α) (new : SNew.Idx → α) :
    concatenate SOut 2 [⟨SCache, cache⟩, ⟨SNew, new⟩] h = appended cache new := by
  funext j
  unfold appended
  by_cases hj : (j 2).val < 65536
  · rw [dif_pos hj]
    refine concatenate_pair_apply_left (2 : Fin 4) cache new h j rfl _ (fun b => ?_)
    match b with
    | ⟨0, _⟩ => rfl
    | ⟨1, _⟩ => rfl
    | ⟨2, _⟩ => rfl
    | ⟨3, _⟩ => rfl
  · rw [dif_neg hj]
    refine concatenate_pair_apply_right (2 : Fin 4) cache new h j rfl rfl _ (fun b hb => ?_) ?_
    · match b with
      | ⟨0, _⟩ => rfl
      | ⟨1, _⟩ => rfl
      | ⟨2, _⟩ => exact absurd rfl hb
      | ⟨3, _⟩ => rfl
    · show (j 2).val - 65536 + 65536 = (j 2).val
      omega

end Cert.Append

end
-- ==== Proof.KernelValue.lean ====
/-
  The kernel's result, read through the whole run, is the cache with the new rows appended.

  The run's last boundary holds the result buffer as a fold from the launch memory. Read backwards: the result is
  the tail region's output with a leading unit axis; the tail region's output is the new rows from row 65536 on and
  its entry contents below; it was entered with a copy of the copy region's output, which is the cache (its unit
  batch axis dropped) on the rows below 65536; and the new rows' buffer still holds the new rows with their unit
  batch axis dropped, no region and no later host operation writing it. Index by index that is `appended`: the
  cache's row while the row is below 65536, the new block's row, 65536 less, from there on.
-/
import proofs.«129565_j79276506350246_1_alg».proof.Proof.KernelRun
import proofs.«129565_j79276506350246_1_alg».proof.Proof.Regions
import proofs.«129565_j79276506350246_1_alg».proof.Proof.Append
import Idealize.ShloMosaic.Lib.StableHlo.Run

set_option maxRecDepth 16384

noncomputable section

namespace Cert.KernelIdeal.RunValue

open Cert.KernelIdeal Cert.KernelIdeal.Gen Cert.KernelIdeal.RegionValue Cert.Append
open Idealize.ShloMosaic Idealize.ShloMosaic.TcCoe Idealize.ShloMosaic.ValueIdx Idealize.SL.Sem
open Idealize.ShloMosaic.StableHlo

variable {F : FTy → Type} [FloatOps F]
variable (m : (ℓ : Loc nD τ sig) → Buf (Elt F) ℓ) (ρ : Dev nD → PrngReg)

/-- The copy region is entered with the cache, its unit batch axis dropped, in its input buffer. -/
theorem entry_cache (c : Dev nD) :
    (V1 m ρ c main_v0 : S8x65536x64.Idx → Elt F .f32)
      = shapeCast S8x65536x64 (m ((c : Thread nD τ).loc main_arg1)) shapeCasts_S1x8x65536x64_S8x65536x64 := by
  show StableHlo.after hostOps0 (W0 m ρ c) (Proc.devRef .tc main_v0) = _
  after_results
  rfl

/-- and with the new rows, their unit batch axis dropped, in the buffer the tail region will read. -/
theorem entry_new (c : Dev nD) :
    (V1 m ρ c main_v1 : S8x16x64.Idx → Elt F .f32)
      = shapeCast S8x16x64 (m ((c : Thread nD τ).loc main_arg0)) shapeCasts_S1x8x16x64_S8x16x64 := by
  show StableHlo.after hostOps0 (W0 m ρ c) (Proc.devRef .tc main_v1) = _
  after_results
  rfl

/-- The tail region still finds the new rows there: neither the copy region nor the copy between the regions
    writes that buffer. -/
theorem tail_new (c : Dev nD) :
    (V3 m ρ c main_v1 : S8x16x64.Idx → Elt F .f32)
      = shapeCast S8x16x64 (m ((c : Thread nD τ).loc main_arg0)) shapeCasts_S1x8x16x64_S8x16x64 := by
  show StableHlo.after hostOps1 (W2 m ρ c) (Proc.devRef .tc main_v1) = _
  after_results
  rw [W2_of_ne m ρ c main_v1 (by decide)]
  exact entry_new m ρ c

/-- The tail region's output buffer is entered holding a copy of the copy region's output. -/
theorem tail_entry (c : Dev nD) :
    (V3 m ρ c main_v3 : S8x65552x64.Idx → Elt F .f32) = copied (V1 m ρ) c := by
  show StableHlo.after hostOps1 (W2 m ρ c) (Proc.devRef .tc main_v3) = _
  after_results
  show W2 m ρ c (Proc.devRef .tc (Pipeline.arrRef spec0 1)) = _
  rw [W2_arr m ρ c 1]
  exact copy_array (V1 m ρ) c

/-- The result buffer at the last boundary: the tail region's output under a leading unit axis. -/
theorem result_tailed (c : Dev nD) :
    (W5 m ρ c (Proc.devRef .tc main_v4) : S1x8x65552x64.Idx → Elt F .f32)
      = broadcastInDim S1x8x65552x64 ![1, 2, 3] bcast_S8x65552x64_S1x8x65552x64_1_2_3 (tailed (V3 m ρ) c) := by
  show StableHlo.after hostOps2 (W4 m ρ c) (Proc.devRef .tc main_v4) = _
  after_results
  show broadcastInDim S1x8x65552x64 ![1, 2, 3] bcast_S8x65552x64_S1x8x65552x64_1_2_3
    (W4 m ρ c (Proc.devRef .tc (Pipeline.arrRef spec1 2))) = _
  rw [W4_arr m ρ c 2, tail_array (V3 m ρ) c]

/-- Dropping the unit batch axis: the array at (head, row, lane) is the 4-axis array at (0, head, row, lane). -/
theorem dropBatch_apply {n1 n2 n3 : Nat} (x : (⟨4, ![1, n1, n2, n3]⟩ : Shape).Idx → Elt F .f32)
    (h : (⟨4, ![1, n1, n2, n3]⟩ : Shape).ShapeCasts ⟨3, ![n1, n2, n3]⟩) (b : Fin 1) (p : Fin n1) (q : Fin n2) (r : Fin n3) :
    shapeCast ⟨3, ![n1, n2, n3]⟩ x h (ix3 p q r) = x (ix4 b p q r) := by
  refine (shapeCast_dropUnit_apply ![n1, n2, n3] x h (ix3 p q r)).trans (congrArg x (funext fun a => ?_))
  match a with
  | ⟨0, _⟩ => exact Fin.ext (by have := b.isLt; show 0 = b.val; omega)
  | ⟨1, _⟩ => rfl
  | ⟨2, _⟩ => rfl
  | ⟨3, _⟩ => rfl

/-- THE RESULT: the cache with the new rows appended. -/
theorem result_eq (c : Dev nD) :
    (W5 m ρ c (Proc.devRef .tc main_v4) : S1x8x65552x64.Idx → Elt F .f32)
      = appended (m ((c : Thread nD τ).loc main_arg1)) (m ((c : Thread nD τ).loc main_arg0)) := by
  rw [result_tailed]
  funext j
  have hj2 : (j 2).val < 65552 := (j 2).isLt
  rw [broadcastInDim_apply _ _ _ j (ix3 (n0 := 8) (n1 := 65552) (n2 := 64) (j 1) (j 2) (j 3)) (fun a => by
    match a with
    | ⟨0, _⟩ => rfl
    | ⟨1, _⟩ => rfl
    | ⟨2, _⟩ => rfl)]
  unfold tailed appended
  by_cases hr : (j 2).val < 65536
  · rw [dif_neg (show ¬ 65536 ≤ (j 2).val by omega), dif_pos hr, tail_entry]
    unfold copied
    rw [dif_pos (show (j 2).val < 65536 from hr), entry_cache]
    exact dropBatch_apply _ _ (j 0) (j 1) ⟨(j 2).val, hr⟩ (j 3)
  · rw [dif_pos (show 65536 ≤ (j 2).val by omega), dif_neg hr, tail_new]
    exact dropBatch_apply _ _ (j 0) (j 1) _ (j 3)

/-- The run with its result read: the result buffer ends holding the cache with the new rows appended, the two
    arguments what they held. -/
theorem run : θ_run defs (onTc (τ := τ) (main (F := F))) ⟨m, fun _ => 0, ρ⟩ (fun r => ∀ c : Dev nD,
      r.2.mem ((c.tc : Thread nD τ).loc main_v4)
        = appended (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (run_main m ρ)

end Cert.KernelIdeal.RunValue

end
-- ==== Proof.lean ====
/-
  Appending new rows to a key cache: a two-region Pallas program against `jnp.concatenate`.

  The kernel program drops the unit batch axis of the cache (1 × 8 × 65536 × 64) and of the new rows
  (1 × 8 × 16 × 64); a first region copies the cache, tile by tile, into the first 65536 rows of every head of an
  8 × 65552 × 64 buffer; a second region, running over a copy of that buffer, stores the 16 new rows of every head
  into rows 65536 … 65551; the unit batch axis is put back. The reference concatenates the cache and the new rows
  along the row axis. No arithmetic is done on any element, so the two results agree as extended reals for every
  input: index by index both are the cache's row while the row is below 65536 and the new block's row, 65536 less,
  from there on (`Cert.Append.appended`). The precondition is never opened.

  The three frames are the generated ones (the reference's is its generated run with the result dropped). The
  idealization rewrote nothing, so `preserves` is `True`. For `algebraic` the kernel program's run is stated once
  more with its result buffer kept (Proof/KernelRun.lean), the result is read back through the two regions' write-backs
  (Proof/Regions.lean, Proof/KernelValue.lean), and the reference's concatenation is read at an index
  (Proof/Append.lean).
-/
import proofs.«129565_j79276506350246_1_alg».proof.Defs
import proofs.«129565_j79276506350246_1_alg».proof.Proof.Gen.Kernel
import proofs.«129565_j79276506350246_1_alg».proof.Proof.Gen.Kernel.Skeleton
import proofs.«129565_j79276506350246_1_alg».proof.Proof.Gen.Kernel.Launch
import proofs.«129565_j79276506350246_1_alg».proof.Proof.Gen.Kernel.Points
import proofs.«129565_j79276506350246_1_alg».proof.Proof.Gen.Kernel.Frame
import proofs.«129565_j79276506350246_1_alg».proof.Proof.Gen.KernelIdeal
import proofs.«129565_j79276506350246_1_alg».proof.Proof.Gen.KernelIdeal.Skeleton
import proofs.«129565_j79276506350246_1_alg».proof.Proof.Gen.KernelIdeal.Launch
import proofs.«129565_j79276506350246_1_alg».proof.Proof.Gen.KernelIdeal.Points
import proofs.«129565_j79276506350246_1_alg».proof.Proof.Gen.KernelIdeal.Frame
import proofs.«129565_j79276506350246_1_alg».proof.Proof.Gen.ReferenceIdeal
import proofs.«129565_j79276506350246_1_alg».proof.Proof.Gen.ReferenceIdeal.Run
import proofs.«129565_j79276506350246_1_alg».proof.Proof.Gen.Pre_finite_inputs
import proofs.«129565_j79276506350246_1_alg».proof.Proof.KernelValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the cache and the new rows appended: the kernel
    program by its two regions' write-backs, the reference because a concatenation along the row axis is that array. -/
theorem algebraic : Cert.algebraic_KernelIdeal_ReferenceIdeal := by
  intro m ρ m' ρ' _ hagree
  refine ⟨_, Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.Append.concatenate_eq_appended _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
